-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x3 : Shape := ⟨3, ![32, 1024, 3]⟩
abbrev S_ : Shape := ⟨0, ![]⟩

class Facts : Prop where
  bcast_S_S32x1024x3 : S_.BroadcastsInDim S32x1024x3 (![] : Fin 0 → Fin S32x1024x3.rank)
  reducesTo_S32x1024x3_S_d0_1_2 : S32x1024x3.ReducesTo [0, 1, 2] S_
  h_S_ : 0 < S_.numel

variable [Facts]

def fn {F : FTy → Type} [FloatOps F] (main_arg0 : FVec F S32x1024x3 .f32) : IVec S_ 1 :=
  let main_v0 : FVec F S32x1024x3 .f32 := Host.absf main_arg0
  let main_cst : FVec F S_ .f32 := constant S_ .f32 0x7F800000#32
  let main_v1 : FVec F S32x1024x3 .f32 := broadcastInDim S32x1024x3 ![] bcast_S_S32x1024x3 main_cst
  let main_v2 : IVec S32x1024x3 1 := cmpf .olt main_v0 main_v1
  let main_c : IVec S_ 1 := constantI S_ 1 1#1
  let main_v3 : IVec S_ 1 := (fun x v => Host.reduce IntOp.andi x v reducesTo_S32x1024x3_S_d0_1_2 h_S_) main_v2 main_c
  main_v3
-- ==== Kernel.lean ====
abbrev S32x1024x3 : Shape := ⟨3, ![32, 1024, 3]⟩
abbrev S32x1024x2047 : Shape := ⟨3, ![32, 1024, 2047]⟩
abbrev S4x128x3 : Shape := ⟨3, ![4, 128, 3]⟩
abbrev S4x128x2047 : Shape := ⟨3, ![4, 128, 2047]⟩
abbrev S4x128x1 : Shape := ⟨3, ![4, 128, 1]⟩
abbrev S1x1x2047 : Shape := ⟨3, ![1, 1, 2047]⟩

abbrev nBuf : Space → Nat
  | .hbm => 2
  | .vmem => 4
  | .smem => 0
  | _ => 0

abbrev bufTy : (tb : Table) → Fin (tcTables nBuf tb) → BufTy
  | .hbm, ⟨0, _⟩ => ⟨S32x1024x3, .f32⟩
  | .hbm, ⟨1, _⟩ => ⟨S32x1024x2047, .f32⟩
  | .local _ .vmem, ⟨0, _⟩ => ⟨S4x128x3, .f32⟩
  | .local _ .vmem, ⟨1, _⟩ => ⟨S4x128x3, .f32⟩
  | .local _ .vmem, ⟨2, _⟩ => ⟨S4x128x2047, .f32⟩
  | .local _ .vmem, ⟨3, _⟩ => ⟨S4x128x2047, .f32⟩
  | _, _ => ⟨S32x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128x2047 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S4x128x3_S4x128x1_0_0_0 : ∀ a, (![0, 0, 0] : Fin 3 → Nat) a + S4x128x1.size a ≤ S4x128x3.size a
  h_S4x128x1 : 0 < S4x128x1.numel
  inb_S4x128x3_S4x128x1_0_0_1 : ∀ a, (![0, 0, 1] : Fin 3 → Nat) a + S4x128x1.size a ≤ S4x128x3.size a
  inb_S4x128x3_S4x128x1_0_0_2 : ∀ a, (![0, 0, 2] : Fin 3 → Nat) a + S4x128x1.size a ≤ S4x128x3.size a
  iota_S1x1x2047_d2_w32 : S1x1x2047.Iotas .tc 32 [2]
  broadcasts_S1x1x2047_S4x128x2047 : S1x1x2047.Broadcasts S4x128x2047
  broadcasts_S4x128x1_S4x128x2047 : S4x128x1.Broadcasts S4x128x2047
  inb_S4x128x2047_S4x128x2047_0_0_0 : ∀ a, (![0, 0, 0] : Fin 3 → Nat) a + S4x128x2047.size a ≤ S4x128x2047.size a
  h_S4x128x2047 : 0 < S4x128x2047.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x128x3.size a ≤ S32x1024x3.size a
  hwx0_0 : ∀ i : grid0.Coords, EltTy.bits .f32 = 32 ∨ (Rect.block (s := S32x1024x3) S4x128x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x128x2047.size a ≤ S32x1024x2047.size a
  hwx0_1 : ∀ i : grid0.Coords, EltTy.bits .f32 = 32 ∨ (Rect.block (s := S32x1024x2047) S4x128x2047.size (cc0_transform_1 i) (hinb0_1 i)).WholeWords (EltTy.packing .f32)

variable [Facts₀]

abbrev win0_0 : Pipeline.Window sig grid0 :=
  Pipeline.Window.ofSpec (Memref.whole main_arg0) S4x128x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x128x2047.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x1024x3 : Shape := ⟨3, ![32, 1024, 3]⟩
abbrev S2047 : Shape := ⟨1, ![2047]⟩
abbrev S_ : Shape := ⟨0, ![]⟩
abbrev S32x1024x1 : Shape := ⟨3, ![32, 1024, 1]⟩
abbrev S1x1x2047 : Shape := ⟨3, ![1, 1, 2047]⟩
abbrev S32x1024x2047 : Shape := ⟨3, ![32, 1024, 2047]⟩

abbrev nBuf : Space → Nat
  | .hbm => 22
  | .vmem => 0
  | .smem => 0
  | _ => 0

abbrev bufTy : (tb : Table) → Fin (tcTables nBuf tb) → BufTy
  | .hbm, ⟨0, _⟩ => ⟨S32x1024x3, .f32⟩
  | .hbm, ⟨1, _⟩ => ⟨S2047, .i32⟩
  | .hbm, ⟨2, _⟩ => ⟨S_, .i32⟩
  | .hbm, ⟨3, _⟩ => ⟨S2047, .i32⟩
  | .hbm, ⟨4, _⟩ => ⟨S2047, .i32⟩
  | .hbm, ⟨5, _⟩ => ⟨S2047, .f32⟩
  | .hbm, ⟨6, _⟩ => ⟨S32x1024x1, .f32⟩
  | .hbm, ⟨7, _⟩ => ⟨S32x1024x1, .f32⟩
  | .hbm, ⟨8, _⟩ => ⟨S32x1024x1, .f32⟩
  | .hbm, ⟨9, _⟩ => ⟨S1x1x2047, .f32⟩
  | .hbm, ⟨10, _⟩ => ⟨S32x1024x2047, .f32⟩
  | .hbm, ⟨11, _⟩ => ⟨S32x1024x2047, .f32⟩
  | .hbm, ⟨12, _⟩ => ⟨S32x1024x2047, .f32⟩
  | .hbm, ⟨13, _⟩ => ⟨S_, .f32⟩
  | .hbm, ⟨14, _⟩ => ⟨S32x1024x1, .f32⟩
  | .hbm, ⟨15, _⟩ => ⟨S32x1024x1, .f32⟩
  | .hbm, ⟨16, _⟩ => ⟨S32x1024x2047, .f32⟩
  | .hbm, ⟨17, _⟩ => ⟨S32x1024x2047, .f32⟩
  | .hbm, ⟨18, _⟩ => ⟨S32x1024x2047, .f32⟩
  | .hbm, ⟨19, _⟩ => ⟨S32x1024x2047, .f32⟩
  | .hbm, ⟨20, _⟩ => ⟨S32x1024x2047, .f32⟩
  | .hbm, ⟨21, _⟩ => ⟨S32x1024x2047, .f32⟩
  | _, _ => ⟨S32x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩

abbrev nD : Nat := 1
abbrev τ : Topo := Topo.v7x

variable {F : FTy → Type} [FloatOps F]

class Facts₀ : Prop where
  bcast_S_S2047 : S_.BroadcastsInDim S2047 (![] : Fin 0 → Fin S2047.rank)
  slices_S32x1024x3_S32x1024x1_0_0_0 : S32x1024x3.Slices ![0, 0, 0] S32x1024x1
  slices_S32x1024x3_S32x1024x1_0_0_1 : S32x1024x3.Slices ![0, 0, 1] S32x1024x1
  slices_S32x1024x3_S32x1024x1_0_0_2 : S32x1024x3.Slices ![0, 0, 2] S32x1024x1
  bcast_S2047_S1x1x2047_2 : S2047.BroadcastsInDim S1x1x2047 (![2] : Fin 1 → Fin S1x1x2047.rank)
  bcast_S1x1x2047_S32x1024x2047_0_1_2 : S1x1x2047.BroadcastsInDim S32x1024x2047 (![0, 1, 2] : Fin 3 → Fin S32x1024x2047.rank)
  bcast_S32x1024x1_S32x1024x2047_0_1_2 : S32x1024x1.BroadcastsInDim S32x1024x2047 (![0, 1, 2] : Fin 3 → Fin S32x1024x2047.rank)
  bcast_S_S32x1024x1 : S_.BroadcastsInDim S32x1024x1 (![] : Fin 0 → Fin S32x1024x1.rank)

variable [Facts₀]

class Facts : Prop extends Facts₀ where

variable [Facts]
-- ==== Proof.SpanScore.lean ====
/-
  The span score as ONE function of the span array, entry by entry.

  A row (b, r) of the span array holds three numbers: the mean μ = span[b, r, 0], the softness
  σ = span[b, r, 1] and the intercept β = span[b, r, 2]. Column j of the 2047 relative positions stands
  for the integer j − 1023 (the 32-bit word difference, converted signed), and entry (b, r, j) of the
  result is

      −( ((j − 1023) + μ) / (σ + ε) )² + β

  over the extended reals, ε the value of the single-precision word 0x3727C5AC. The quotient is the ideal
  division, corners included: both programs divide the same pair, so no case of it is ever opened, and no
  law that needs finite operands is used anywhere (the square is a plain product, the negation a plain
  negation).
-/
import Idealize.ShloMosaic.PureOps.Ideal
import Idealize.ShloMosaic.Lib.ValueIdx

noncomputable section

namespace Cert.SpanScore

open Idealize.ShloMosaic Idealize.ShloMosaic.ValueIdx

/-- The span array: 32 batch-heads, 1024 tokens, (mean, softness, intercept). -/
abbrev SpanShape : Shape := ⟨3, ![32, 1024, 3]⟩
/-- The scores: one per batch-head, token and relative position. -/
abbrev ScoreShape : Shape := ⟨3, ![32, 1024, 2047]⟩

/-- The relative position column `j` stands for: the word `j − 1023`, converted signed. -/
def relPos (j : Nat) : EReal :=
  FloatOps.sitofp (F := Ideal) .f32 (IntOp.subi (BitVec.ofNat 32 j) 1023#32)

/-- The softness offset ε. -/
def eps : EReal := Ideal.ofBits .f32 0x3727C5AC#32

/-- One entry from its column's position `x` and its row's mean, softness and intercept. -/
def entry (x μ σ β : EReal) : EReal :=
  -(Ideal.div (x + μ) (σ + eps) * Ideal.div (x + μ) (σ + eps)) + β

/-- Entry `k` of row (b, r) of the span array. -/
abbrev rowCol (b : Fin 32) (r : Fin 1024) (k : Fin 3) : SpanShape.Idx := ix3 b r k

/-- The whole result array as a function of the whole span array. -/
def score (a : SpanShape.Idx → EReal) : ScoreShape.Idx → EReal := fun i =>
  entry (relPos (i 2).val) (a (rowCol (i 0) (i 1) 0)) (a (rowCol (i 0) (i 1) 1)) (a (rowCol (i 0) (i 1) 2))

/-- The score at an index given by its coordinates. -/
theorem score_ix3 (a : SpanShape.Idx → EReal) (b : Fin 32) (r : Fin 1024) (j : Fin 2047) :
    score a (ix3 b r j) = entry (relPos j.val) (a (ix3 b r 0)) (a (ix3 b r 1)) (a (ix3 b r 2)) := rfl

end Cert.SpanScore

end
-- ==== Proof.ReferenceScore.lean ====
/-
  The reference computes the span score.

  Read one operation at a time, entry (b, r, j) of the reference's result is the sum of the negated square
  of a quotient and a broadcast intercept. The quotient's numerator is the relative-position vector — an
  iota minus 1023, converted, laid along the last axis — plus the mean column broadcast along that axis;
  its denominator is the softness column plus ε, broadcast the same way. Each broadcast reads its operand
  at the row's coordinates with the unit axis at 0, each slice of the span array shifts the last
  coordinate by the column it takes (0, 1, 2), and the iota reads the last coordinate. Composing these
  index maps gives the three entries of row (b, r) of the span array and the position of column j, which
  is the specification's entry, operation for operation.
-/
import proofs.«103050_j73976516706635_1_alg».proof.Proof.Gen.ReferenceIdeal.Read
import proofs.«103050_j73976516706635_1_alg».proof.Proof.SpanScore

noncomputable section

namespace Cert.ReferenceIdeal.RefValue

open Cert.ReferenceIdeal Cert.ReferenceIdeal.Gen Cert.ReferenceIdeal.Read
open Idealize.ShloMosaic Idealize.ShloMosaic.ValueIdx

/-- The mean's slice under its broadcast reads column 0 of the row. -/
theorem idx_mean (i : S32x1024x2047.Idx) : idx_main_v4 (idx_main_v9 i) = ix3 (i 0) (i 1) 0 :=
  funext fun a => match a with | ⟨0, _⟩ => rfl | ⟨1, _⟩ => rfl | ⟨2, _⟩ => rfl

/-- The softness' slice under its broadcast reads column 1 of the row. -/
theorem idx_softness (i : S32x1024x2047.Idx) : idx_main_v5 (idx_main_v13 i) = ix3 (i 0) (i 1) 1 :=
  funext fun a => match a with | ⟨0, _⟩ => rfl | ⟨1, _⟩ => rfl | ⟨2, _⟩ => rfl

/-- The intercept's slice under its broadcast reads column 2 of the row. -/
theorem idx_intercept (i : S32x1024x2047.Idx) : idx_main_v6 (idx_main_v17 i) = ix3 (i 0) (i 1) 2 :=
  funext fun a => match a with | ⟨0, _⟩ => rfl | ⟨1, _⟩ => rfl | ⟨2, _⟩ => rfl

/-- The reference's last stage is the span score of its argument. -/
theorem reference_eq (a : S32x1024x3.Idx → EReal) :
    val_main_v18 (F := Ideal) a = Cert.SpanScore.score a := by
  funext i
  rw [val_main_v18_apply, val_main_v16_apply, val_main_v15_apply, val_main_v14_apply, val_main_v10_apply,
    val_main_v8_apply, val_main_v7_apply, val_main_v3_apply, val_main_v2_apply, val_main_v0_apply,
    val_main_v1_apply, val_main_c_apply, val_main_v9_apply, val_main_v4_apply, val_main_v13_apply,
    val_main_v12_apply, val_main_v5_apply, val_main_v11_apply, val_main_cst_apply, val_main_v17_apply,
    val_main_v6_apply, idx_mean, idx_softness, idx_intercept]
  rfl

end Cert.ReferenceIdeal.RefValue

end
-- ==== Proof.KernelBlock.lean ====
/-
  What one grid point of the kernel stores, entry by entry.

  A grid point holds a [4, 128, 3] block of the span array and stores a [4, 128, 2047] block of scores.
  The body takes the block's three columns apart (three loads of [4, 128, 1] through rectangles at column
  offsets 0, 1, 2), builds the position row by an iota along the last axis minus 1023, converted, and
  broadcasts: the row down the 4 × 128 rows, each column along the 2047 positions. So entry (p, q, j) of
  the stored block is computed from entries (p, q, 0), (p, q, 1), (p, q, 2) of the span block and from j
  alone. The body negates the square as `0 − x`, which on the extended reals is `−x` for every `x`,
  infinite ones included; that is the only place where its arithmetic is spelt differently from the
  specification's.
-/
import proofs.«103050_j73976516706635_1_alg».proof.Proof.Gen.KernelIdeal.Frame
import proofs.«103050_j73976516706635_1_alg».proof.Proof.SpanScore
import Idealize.ShloMosaic.Lib.Pipeline.Value
import Idealize.ShloMosaic.Lib.ValueIdx
import Idealize.ShloMosaic.Lib.KernelVsHost

noncomputable section

namespace Cert.KernelIdeal.Score

open Cert.KernelIdeal Cert.KernelIdeal.Gen
open Idealize.ShloMosaic Idealize.ShloMosaic.ValueIdx

/-- A column of the block, broadcast along the positions, reads the column at the row. -/
theorem column_along_positions (v : FVec Ideal S4x128x1 .f32) (p : Fin 4) (q : Fin 128) (j : Fin 2047) :
    broadcastTo S4x128x2047 v broadcasts_S4x128x1_S4x128x2047 (ix3 p q j) = v (ix3 p q 0) :=
  broadcastTo_apply v broadcasts_S4x128x1_S4x128x2047 (ix3 p q j) (ix3 p q 0) fun a => match a with
    | ⟨0, _⟩ => by show p.val = if (4 : Nat) = 1 then 0 else p.val; rw [if_neg (by decide)]
    | ⟨1, _⟩ => by show q.val = if (128 : Nat) = 1 then 0 else q.val; rw [if_neg (by decide)]
    | ⟨2, _⟩ => by show 0 = if (1 : Nat) = 1 then 0 else j.val; rw [if_pos rfl]

/-- The position row, broadcast down the rows, reads the row at the position. -/
theorem row_down_rows (v : FVec Ideal S1x1x2047 .f32) (p : Fin 4) (q : Fin 128) (j : Fin 2047) :
    broadcastTo S4x128x2047 v broadcasts_S1x1x2047_S4x128x2047 (ix3 p q j) = v (ix3 0 0 j) :=
  broadcastTo_apply v broadcasts_S1x1x2047_S4x128x2047 (ix3 p q j) (ix3 0 0 j) fun a => match a with
    | ⟨0, _⟩ => by show 0 = if (1 : Nat) = 1 then 0 else p.val; rw [if_pos rfl]
    | ⟨1, _⟩ => by show 0 = if (1 : Nat) = 1 then 0 else q.val; rw [if_pos rfl]
    | ⟨2, _⟩ => by show j.val = if (2047 : Nat) = 1 then 0 else j.val; rw [if_neg (by decide)]

/-- The position row at column `j` is the relative position `j − 1023`. -/
theorem position_row (j : Fin 2047) :
    (sitofp .f32 (subi (iota .tc S1x1x2047 32 [2] iota_S1x1x2047_d2_w32) (broadcast S1x1x2047 1023#32)) :
      FVec Ideal S1x1x2047 .f32) (ix3 0 0 j) = Cert.SpanScore.relPos j.val := by
  show FloatOps.sitofp (F := Ideal) .f32
      (IntOp.subi (iota .tc S1x1x2047 32 [2] iota_S1x1x2047_d2_w32 (ix3 0 0 j)) 1023#32) = _
  rw [iota_single_apply]
  rfl

/-- Entry (p, q, j) of what the body stores, from the three columns it loaded. -/
theorem payload_apply (v0 v1 v2 : Vec Ideal S4x128x1 .f32) (p : Fin 4) (q : Fin 128) (j : Fin 2047) :
    k0_pay1 (F := Ideal) v0 v1 v2 (ix3 p q j)
      = Cert.SpanScore.entry (Cert.SpanScore.relPos j.val) (v0 (ix3 p q 0)) (v1 (ix3 p q 0)) (v2 (ix3 p q 0)) := by
  unfold k0_pay1
  rw [addf_apply, column_along_positions, subf_apply, broadcast_apply, mulf_apply, divf_apply, addf_apply,
    row_down_rows, position_row, column_along_positions, column_along_positions, addf_apply, broadcast_apply]
  show Ideal.ofBits .f32 0x00000000#32 - _ + _ = _
  rw [Ideal.ofBits_zero_f32, zero_sub]
  rfl

/-- The load of column 0 reads the block's column 0 at the row … -/
theorem column0 (p : Fin 4) (q : Fin 128) : (r0_0 : Rect S4x128x3).idx (ix3 p q 0) = ix3 p q 0 :=
  funext fun a => Fin.ext (match a with
    | ⟨0, _⟩ => by show 0 + 1 * p.val = p.val; omega
    | ⟨1, _⟩ => by show 0 + 1 * q.val = q.val; omega
    | ⟨2, _⟩ => by show 0 + 1 * 0 = 0; rfl)

/-- … the load of column 1 its column 1 … -/
theorem column1 (p : Fin 4) (q : Fin 128) : (r0_1 : Rect S4x128x3).idx (ix3 p q 0) = ix3 p q 1 :=
  funext fun a => Fin.ext (match a with
    | ⟨0, _⟩ => by show 0 + 1 * p.val = p.val; omega
    | ⟨1, _⟩ => by show 0 + 1 * q.val = q.val; omega
    | ⟨2, _⟩ => by show 1 + 1 * 0 = 1; rfl)

/-- … and the load of column 2 its column 2. -/
theorem column2 (p : Fin 4) (q : Fin 128) : (r0_2 : Rect S4x128x3).idx (ix3 p q 0) = ix3 p q 2 :=
  funext fun a => Fin.ext (match a with
    | ⟨0, _⟩ => by show 0 + 1 * p.val = p.val; omega
    | ⟨1, _⟩ => by show 0 + 1 * q.val = q.val; omega
    | ⟨2, _⟩ => by show 2 + 1 * 0 = 2; rfl)

/-- Entry (p, q, j) of what the body stores, from the span block it was given: the row's three numbers
    and the position of column `j`. -/
theorem stored_entry (x : Vec Ideal S4x128x3 .f32) (p : Fin 4) (q : Fin 128) (j : Fin 2047) :
    k0_pay1 (F := Ideal) (View.ld x r0_0) (View.ld x r0_1) (View.ld x r0_2) (ix3 p q j)
      = Cert.SpanScore.entry (Cert.SpanScore.relPos j.val) (x (ix3 p q 0)) (x (ix3 p q 1)) (x (ix3 p q 2)) := by
  rw [payload_apply]
  show Cert.SpanScore.entry _ (x ((r0_0 : Rect S4x128x3).idx (ix3 p q 0))) (x ((r0_1 : Rect S4x128x3).idx (ix3 p q 0)))
      (x ((r0_2 : Rect S4x128x3).idx (ix3 p q 0))) = _
  rw [column0, column1, column2]

/-- Entry `k` of row (p, q) of a span block. -/
abbrev blockRowCol (p : Fin 4) (q : Fin 128) (k : Fin 3) : S4x128x3.Idx := ix3 p q k

/-- THE STORED BLOCK IS A BLOCK OF THE SCORE: if the span block `x` holds, at row (y 0, y 1), what the
    span array `a` holds at row (i 0, i 1), and `y` and `i` name the same position, then the body's
    store at `y` is the score of `a` at `i`. -/
theorem stored_is_score (x : Vec Ideal S4x128x3 .f32) (a : S32x1024x3.Idx → EReal) (y : S4x128x2047.Idx)
    (i : S32x1024x2047.Idx)
    (hrow : ∀ k : Fin 3, x (blockRowCol (y 0) (y 1) k) = a (Cert.SpanScore.rowCol (i 0) (i 1) k))
    (hpos : (y 2).val = (i 2).val) :
    k0_pay1 (F := Ideal) (View.ld x r0_0) (View.ld x r0_1) (View.ld x r0_2) y = Cert.SpanScore.score a i :=
  calc k0_pay1 (F := Ideal) (View.ld x r0_0) (View.ld x r0_1) (View.ld x r0_2) y
      = k0_pay1 (F := Ideal) (View.ld x r0_0) (View.ld x r0_1) (View.ld x r0_2)
          (ix3 (n0 := 4) (n1 := 128) (n2 := 2047) (y 0) (y 1) (y 2)) :=
        congrArg (k0_pay1 (F := Ideal) (View.ld x r0_0) (View.ld x r0_1) (View.ld x r0_2)) (eq_ix3 y)
    _ = Cert.SpanScore.entry (Cert.SpanScore.relPos (y 2).val) (x (blockRowCol (y 0) (y 1) 0))
          (x (blockRowCol (y 0) (y 1) 1)) (x (blockRowCol (y 0) (y 1) 2)) := stored_entry x (y 0) (y 1) (y 2)
    _ = Cert.SpanScore.score a i := by rw [hrow 0, hrow 1, hrow 2, hpos]; rfl

end Cert.KernelIdeal.Score

end
-- ==== Proof.KernelScore.lean ====
/-
  The kernel's result array is the span score of its argument.

  The grid is 8 × 8. Point (g, h) stages the span block of batch-heads 4g … 4g + 3 and tokens
  128h … 128h + 127 (all three columns) and writes back the score block of the same batch-heads and tokens,
  all 2047 positions: both index maps are (g, h, 0). So entry y of the span block is entry
  (4g + y₀, 128h + y₁, y₂) of the span array, entry y of the stored block lands at
  (4g + y₀, 128h + y₁, y₂) of the result, and by the per-point statement the stored block is the score
  block. The 64 score blocks tile the result: index i lies in the block of point (i₀ / 4, i₁ / 128). Hence
  the array after the run is the score of the argument everywhere.
-/
import proofs.«103050_j73976516706635_1_alg».proof.Proof.Gen.KernelIdeal.Value
import proofs.«103050_j73976516706635_1_alg».proof.Proof.KernelBlock

set_option maxRecDepth 16384

noncomputable section

namespace Cert.KernelIdeal.Score

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem origin : (![0, 0, 0] : Fin 3 → Nat) = fun _ => 0 := funext fun a => by fin_cases a <;> rfl

/-- The two index maps over the 64 points: the span block and the score block of a point have the same
    batch-head and token block numbers, both below 8, and both sit at block 0 of the last axis. -/
theorem index_maps : ∀ t : Fin cfg0.N,
    win0_0.index t (0 : Fin 3) = win0_1.index t (0 : Fin 3)
    ∧ win0_0.index t (1 : Fin 3) = win0_1.index t (1 : Fin 3)
    ∧ win0_0.index t (2 : Fin 3) = 0
    ∧ win0_1.index t (2 : Fin 3) = 0
    ∧ win0_1.index t (0 : Fin 3) ≤ 7
    ∧ win0_1.index t (1 : Fin 3) ≤ 7 :=
  (by decide +kernel : ∀ t : Fin grid0.N, _)

/-- Every pair of block numbers below 8 is some point's score block. -/
theorem every_block : ∀ (g : Fin 8) (h : Fin 8), ∃ t : Fin cfg0.N, win0_1.index t = ![g.val, h.val, 0] :=
  (by decide +kernel : ∀ (g : Fin 8) (h : Fin 8), ∃ t : Fin grid0.N, win0_1.index t = ![g.val, h.val, 0])

/-- WHAT POINT `t` WRITES BACK is block `t` of the score of the span array. -/
theorem flushed_eq (c : Dev nD) (t : Fin cfg0.N) :
    (dats m 0 c).flushed 1 t
      = ((cfg0.win 1).blk t).view.read (Elt Ideal) (Cert.SpanScore.score (V m c main_arg0)) := by
  rw [Cert.KernelIdeal.Value.flushed1]
  unfold out0_1
  rw [View.canon_unit_zero origin]
  obtain ⟨e0, e1, e2, e3, e4, e5⟩ := index_maps t
  funext y
  refine stored_is_score (iblk m c 0 t) (V m c main_arg0) y (((cfg0.win 1).blk t).view.emb y) (fun k => ?_) ?_
  · show V m c main_arg0 (((cfg0.win 0).blk t).view.emb (blockRowCol (y 0) (y 1) k)) = _
    refine congrArg (V m c main_arg0) (funext fun a => Fin.ext ?_)
    match a with
    | ⟨0, _⟩ =>
      show win0_0.index t (0 : Fin 3) * 4 + 1 * (y 0).val = win0_1.index t (0 : Fin 3) * 4 + 1 * (y 0).val
      omega
    | ⟨1, _⟩ =>
      show win0_0.index t (1 : Fin 3) * 128 + 1 * (y 1).val = win0_1.index t (1 : Fin 3) * 128 + 1 * (y 1).val
      omega
    | ⟨2, _⟩ =>
      show win0_0.index t (2 : Fin 3) * 3 + 1 * k.val = k.val
      omega
  · show (y 2).val = win0_1.index t (2 : Fin 3) * 2047 + 1 * (y 2).val
    omega

/-- An index of the result is in point `t`'s block iff each coordinate is in the block's range. -/
theorem mem_block (t : Fin cfg0.N) (i : S32x1024x2047.Idx) :
    i ∈ ((cfg0.win 1).blk t).view.set ↔ ∀ a : Fin 3, win0_1.index t a * S4x128x2047.size a ≤ (i a).val
      ∧ (i a).val < win0_1.index t a * S4x128x2047.size a + S4x128x2047.size a := by
  show i ∈ ((View.whole main_v0).slice (win0_1.rect t)).set ↔ _
  rw [View.set_slice_whole, Rect.mem_set_unit]
  exact Iff.rfl

/-- The score blocks tile the result: index `i` is in the block of the point at (i₀ / 4, i₁ / 128). -/
theorem covered (i : S32x1024x2047.Idx) :
    ∃ t : Fin cfg0.N, (cfg0.win 1).flush t = true ∧ i ∈ ((cfg0.win 1).blk t).view.set := by
  have h0 : (i 0).val < 32 := (i 0).isLt
  have h1 : (i 1).val < 1024 := (i 1).isLt
  have h2 : (i 2).val < 2047 := (i 2).isLt
  obtain ⟨t, ht⟩ := every_block ⟨(i 0).val / 4, by omega⟩ ⟨(i 1).val / 128, by omega⟩
  have q0 : win0_1.index t (0 : Fin 3) = (i 0).val / 4 := congrFun ht 0
  have q1 : win0_1.index t (1 : Fin 3) = (i 1).val / 128 := congrFun ht 1
  have q2 : win0_1.index t (2 : Fin 3) = 0 := congrFun ht 2
  refine ⟨t, flush0_1 t, ?_⟩
  rw [mem_block]
  intro a
  match a with
  | ⟨0, _⟩ =>
    show win0_1.index t (0 : Fin 3) * 4 ≤ (i 0).val ∧ (i 0).val < win0_1.index t (0 : Fin 3) * 4 + 4
    omega
  | ⟨1, _⟩ =>
    show win0_1.index t (1 : Fin 3) * 128 ≤ (i 1).val ∧ (i 1).val < win0_1.index t (1 : Fin 3) * 128 + 128
    omega
  | ⟨2, _⟩ =>
    show win0_1.index t (2 : Fin 3) * 2047 ≤ (i 2).val ∧ (i 2).val < win0_1.index t (2 : Fin 3) * 2047 + 2047
    omega

/-- THE RESULT ARRAY after the run is the score of the span array as launched. -/
theorem final (c : Dev nD) :
    (dats m 0 c).arrAt 1 cfg0.N = Cert.SpanScore.score (m ((c : Thread nD τ).loc main_arg0)) :=
  (dats m 0 c).arrAt_eq_of_cover 1 (Cert.SpanScore.score (V m c main_arg0)) (fun t _ => flushed_eq m c t) covered

/-- The run, read: the result at the score of the argument, the argument unchanged. -/
theorem run : θ_run defs (onTc (τ := τ) (main (F := Ideal))) ⟨m, fun _ => 0, ρ⟩ fun r => ∀ c : Dev nD,
      r.2.mem ((c : Thread nD τ).loc main_v0) = Cert.SpanScore.score (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelIdeal.Score

end
-- ==== Proof.lean ====
/-
  The span-scoring kernel against its jnp reference, over the extended reals.

  Both programs compute, for every batch-head b, token r and relative position j,

      −( ((j − 1023) + span[b, r, 0]) / (span[b, r, 1] + ε) )² + span[b, r, 2].

  The kernel does it block by block on an 8 × 8 grid, with an in-kernel iota for the positions and `0 − x`
  for the negation; the reference does it on whole arrays, with slices and broadcasts. Proof/SpanScore.lean
  states the function once; Proof/ReferenceScore.lean reads the reference's operations down to it;
  Proof/KernelBlock.lean reads one grid point's store down to it, and Proof/KernelScore.lean lays the 64
  stored blocks over the result array. No step needs the inputs finite: the two sides apply the same
  operations to the same operands, and `0 − x = −x` holds at the infinities too. The kernel's
  idealization rewrites no operation, so the idealization claim has nothing to state.
-/
import proofs.«103050_j73976516706635_1_alg».proof.Defs
import proofs.«103050_j73976516706635_1_alg».proof.Proof.Gen.Kernel
import proofs.«103050_j73976516706635_1_alg».proof.Proof.Gen.Kernel.Frame
import proofs.«103050_j73976516706635_1_alg».proof.Proof.Gen.KernelIdeal
import proofs.«103050_j73976516706635_1_alg».proof.Proof.Gen.KernelIdeal.Frame
import proofs.«103050_j73976516706635_1_alg».proof.Proof.Gen.KernelIdeal.Value
import proofs.«103050_j73976516706635_1_alg».proof.Proof.Gen.ReferenceIdeal
import proofs.«103050_j73976516706635_1_alg».proof.Proof.Gen.ReferenceIdeal.Run
import proofs.«103050_j73976516706635_1_alg».proof.Proof.Gen.ReferenceIdeal.Read
import proofs.«103050_j73976516706635_1_alg».proof.Proof.Gen.Pre_finite_inputs
import proofs.«103050_j73976516706635_1_alg».proof.Proof.ReferenceScore
import proofs.«103050_j73976516706635_1_alg».proof.Proof.KernelScore
import Idealize.ShloMosaic.Adequacy
import Idealize.ShloMosaic.Init

noncomputable section

namespace Cert.Proof

open Idealize.ShloMosaic Idealize.SL.Sem

/-- The word-level kernel runs and leaves the span array as it was. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves the span array as it was: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From span arrays that agree, both runs end with the result at the span score of the argument. -/
theorem algebraic : Cert.algebraic_KernelIdeal_ReferenceIdeal := by
  intro m ρ m' ρ' _ hagree
  refine ⟨fun c => Cert.SpanScore.score (m ((c.tc : Thread Cert.KernelIdeal.nD Cert.KernelIdeal.τ).loc Cert.KernelIdeal.main_arg0)),
    Cert.KernelIdeal.Score.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.reference_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
